-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3 : Shape := ⟨2, ![16384, 3]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel

variable [Facts]

def fn {F : FTy → Type} [FloatOps F] (main_arg0 : FVec F S16384x3 .f32) (main_arg1 : FVec F S16384x3 .f32) : IVec S_ 1 :=
  let main_v0 : FVec F S16384x3 .f32 := Host.absf main_arg0
  let main_cst : FVec F S_ .f32 := constant S_ .f32 0x7F800000#32
  let main_v1 : FVec F S16384x3 .f32 := broadcastInDim S16384x3 ![] bcast_S_S16384x3 main_cst
  let main_v2 : IVec S16384x3 1 := cmpf .olt main_v0 main_v1
  let main_c : IVec S_ 1 := constantI S_ 1 1#1
  let main_v3 : IVec S_ 1 := (fun x v => Host.reduce IntOp.andi x v reducesTo_S16384x3_S_d0_1 h_S_) main_v2 main_c
  let main_v4 : FVec F S16384x3 .f32 := Host.absf main_arg1
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  main_v8
-- ==== Kernel.lean ====
abbrev S16384x3 : Shape := ⟨2, ![16384, 3]⟩
abbrev S16384x1 : Shape := ⟨2, ![16384, 1]⟩
abbrev S1024x3 : Shape := ⟨2, ![1024, 3]⟩
abbrev S1024x1 : Shape := ⟨2, ![1024, 1]⟩
abbrev S1024 : Shape := ⟨1, ![1024]⟩
abbrev S3x1024 : Shape := ⟨2, ![3, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 15
  | .vmem => 12
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S16384x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S1024x3, .f32⟩
  | .local _ .vmem, ⟨3, _⟩ => ⟨S1024x3, .f32⟩
  | .local _ .vmem, ⟨4, _⟩ => ⟨S1024x1, .f32⟩
  | .local _ .vmem, ⟨5, _⟩ => ⟨S1024x1, .f32⟩
  | .local _ .vmem, ⟨6, _⟩ => ⟨S1024x3, .f32⟩
  | .local _ .vmem, ⟨7, _⟩ => ⟨S1024x3, .f32⟩
  | .local _ .vmem, ⟨8, _⟩ => ⟨S1024x3, .f32⟩
  | .local _ .vmem, ⟨9, _⟩ => ⟨S1024x3, .f32⟩
  | .local _ .vmem, ⟨10, _⟩ => ⟨S1024x1, .f32⟩
  | .local _ .vmem, ⟨11, _⟩ => ⟨S1024x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1_S1024x1_0_0 : ∀ a, (![0, 0] : Fin 2 → Nat) a + S1024x1.size a ≤ S1024x1.size a
  h_S1024x1 : 0 < S1024x1.numel
  inb_S1024x3_S1024x3_0_0 : ∀ a, (![0, 0] : Fin 2 → Nat) a + S1024x3.size a ≤ S1024x3.size a
  h_S1024x3 : 0 < S1024x3.numel
  reduces_S1024x3_S1024 : S1024x3.Reduces [1] S1024
  shapeCasts_S1024_S1024x1 : S1024.ShapeCasts S1024x1
  bitsLt_bf16_f32 : FTy.bits .bf16 < FTy.bits .f32
  transposes_S1024x3_p1_0_S3x1024 : S1024x3.Transposes [1, 0] S3x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024x1_S1024x1 : S1024x1.ShapeCasts S1024x1
  reducesTo_S16384x1_S_d0_1 : S16384x1.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S16384x3.size a
  hwx0_0 : ∀ i : grid0.Coords, EltTy.bits .f32 = 32 ∨ (Rect.block (s := S16384x3) S1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x3.size a ≤ S16384x3.size a
  hwx0_1 : ∀ i : grid0.Coords, EltTy.bits .f32 = 32 ∨ (Rect.block (s := S16384x3) S1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S16384x3.size a
  hwx1_0 : ∀ i : grid1.Coords, EltTy.bits .f32 = 32 ∨ (Rect.block (s := S16384x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3.size a ≤ S16384x3.size a
  hwx1_1 : ∀ i : grid1.Coords, EltTy.bits .f32 = 32 ∨ (Rect.block (s := S16384x3) S1024x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x3 : Shape := ⟨2, ![16384, 3]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S3x16384 : Shape := ⟨2, ![3, 16384]⟩

abbrev nBuf : Space → Nat
  | .hbm => 53
  | .vmem => 0
  | .smem => 0
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x3, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x3, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S16384x16384, .f32⟩
  | .hbm, ⟨12, _⟩ => ⟨S16384x16384, .f32⟩
  | .hbm, ⟨13, _⟩ => ⟨S16384x16384, .f32⟩
  | .hbm, ⟨14, _⟩ => ⟨S3x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S16384x3, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S16384x3, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S1x16384, .f32⟩
  | .hbm, ⟨35, _⟩ => ⟨S16384x16384, .f32⟩
  | .hbm, ⟨36, _⟩ => ⟨S16384x16384, .f32⟩
  | .hbm, ⟨37, _⟩ => ⟨S16384x16384, .f32⟩
  | .hbm, ⟨38, _⟩ => ⟨S3x16384, .f32⟩
  | .hbm, ⟨39, _⟩ => ⟨S16384x16384, .f32⟩
  | .hbm, ⟨40, _⟩ => ⟨S_, .f32⟩
  | .hbm, ⟨41, _⟩ => ⟨S16384x16384, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_cst_9 : Ref sig .tc := ⟨.hbm, 46, rfl⟩
abbrev main_v34 : Ref sig .tc := ⟨.hbm, 47, rfl⟩
abbrev main_cst_10 : Ref sig .tc := ⟨.hbm, 48, rfl⟩
abbrev main_v35 : Ref sig .tc := ⟨.hbm, 49, rfl⟩
abbrev main_v36 : Ref sig .tc := ⟨.hbm, 50, rfl⟩
abbrev main_cst_11 : Ref sig .tc := ⟨.hbm, 51, rfl⟩
abbrev main_v37 : Ref sig .tc := ⟨.hbm, 52, rfl⟩

abbrev nD : Nat := 1
abbrev τ : Topo := Topo.v7x

variable {F : FTy → Type} [FloatOps F]

class Facts₀ : Prop where
  reducesTo_S16384x3_S16384_d1 : S16384x3.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  transposes_S16384x3_S3x16384_1_0 : S16384x3.Transposes [1, 0] S3x16384
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x3_S3x16384_S16384x16384_1_0_0_1_n_n_wf : DotDims.WF S16384x3 S3x16384 S16384x16384 [1] [0] [0] [1] [] []

variable [Facts₀]

def dot_S16384x3_S3x16384_S16384x16384_1_0_0_1_n_n : DotDims S16384x3 S3x16384 S16384x16384 where
  lhsContracting := [1]
  rhsContracting := [0]
  lhsNonContracting := [0]
  rhsNonContracting := [1]
  lhsBatch := []
  rhsBatch := []
  wf := dot_S16384x3_S3x16384_S16384x16384_1_0_0_1_n_n_wf

class Facts : Prop extends Facts₀ where

variable [Facts]
-- ==== Proof.Dist.lean ====
/-
  The squared distance between a source point and a target point of ℝ³ in the expanded form
  ‖s‖² + ‖t‖² − 2·⟨s, t⟩ that both programs compute, read over the extended reals; a source point's NEAREST
  distance, the least of these over all targets; the same least value over only the first b targets; and
  the two lattice steps by which a running minimum taken over the targets one block of rows at a time,
  started from +∞, arrives at the nearest distance. Nothing here needs an entry to be finite: only that
  min is the meet of a linear order with +∞ on top.
-/
import Idealize.ShloMosaic.PureOps.Ideal
import Idealize.ShloMosaic.PureOps.Ideal.Laws
import Idealize.ShloMosaic.Lib.ValueIdx

noncomputable section

namespace Cert.Nearest

open Idealize.ShloMosaic Idealize.ShloMosaic.ValueIdx

/-- n points of ℝ³, one per row. -/
abbrev Pts (n : Nat) : Type := (⟨2, ![n, 3]⟩ : Shape).Idx → EReal

/-- The factor 2 as both programs write it. -/
abbrev two : EReal := Ideal.ofBits .f32 0x40000000#32

/-- The +∞ word is the top of the extended reals. -/
theorem ofBits_inf : Ideal.ofBits .f32 0x7F800000#32 = (⊤ : EReal) := by
  simp [Ideal.ofBits, Ideal.ieee]

/-- ‖s_r‖² + ‖t_c‖² − 2·⟨s_r, t_c⟩. -/
def dist {n m : Nat} (s : Pts n) (t : Pts m) (r : Fin n) (c : Fin m) : EReal :=
  ((∑ k : Fin 3, s (ix2 r k) * s (ix2 r k)) + ∑ k : Fin 3, t (ix2 c k) * t (ix2 c k))
    - two * ∑ k : Fin 3, s (ix2 r k) * t (ix2 c k)

/-- The least distance from source r to any target. -/
def nearest {n m : Nat} (s : Pts n) (t : Pts m) (r : Fin n) : EReal :=
  (Finset.univ : Finset (Fin m)).inf (dist s t r)

theorem le_nearest_iff {n m : Nat} (s : Pts n) (t : Pts m) (r : Fin n) (z : EReal) :
    z ≤ nearest s t r ↔ ∀ c : Fin m, z ≤ dist s t r c := by
  unfold nearest
  rw [Finset.le_inf_iff]
  exact ⟨fun h c => h c (Finset.mem_univ c), fun h c _ => h c⟩

/-- The least distance from source r to the targets below row b. -/
def nearestBelow {n m : Nat} (s : Pts n) (t : Pts m) (b : Nat) (r : Fin n) : EReal :=
  ((Finset.univ : Finset (Fin m)).filter fun c => c.val < b).inf (dist s t r)

theorem le_nearestBelow_iff {n m : Nat} (s : Pts n) (t : Pts m) (b : Nat) (r : Fin n) (z : EReal) :
    z ≤ nearestBelow s t b r ↔ ∀ c : Fin m, c.val < b → z ≤ dist s t r c := by
  unfold nearestBelow
  rw [Finset.le_inf_iff]
  exact ⟨fun h c hc => h c (Finset.mem_filter.mpr ⟨Finset.mem_univ c, hc⟩),
    fun h c hc => h c (Finset.mem_filter.mp hc).2⟩

/-- Below the last row, every target is in. -/
theorem nearestBelow_all {n m : Nat} (s : Pts n) (t : Pts m) (b : Nat) (hb : m ≤ b) (r : Fin n) :
    nearestBelow s t b r = nearest s t r :=
  eq_of_forall_le_iff fun z => by
    rw [le_nearestBelow_iff, le_nearest_iff]
    exact ⟨fun h c => h c (lt_of_lt_of_le c.isLt hb), fun h c _ => h c⟩

/-- A block of B rows cut from an array of points at block index q: row p of the block is row q·B + p. -/
def IsBlock {n B : Nat} (A : Pts n) (q : Nat) (x : Pts B) : Prop :=
  ∀ (p : Fin B) (hp : q * B + p.val < n) (k : Fin 3), x (ix2 p k) = A (ix2 ⟨q * B + p.val, hp⟩ k)

/-- The distance between rows of two blocks is the distance between the rows of the arrays they were cut from. -/
theorem dist_block {n m B : Nat} (S : Pts n) (T : Pts m) (i j : Nat) (x : Pts B) (y : Pts B)
    (hx : IsBlock S i x) (hy : IsBlock T j y) (p c : Fin B) (hp : i * B + p.val < n) (hc : j * B + c.val < m) :
    dist x y p c = dist S T ⟨i * B + p.val, hp⟩ ⟨j * B + c.val, hc⟩ := by
  unfold dist
  simp only [hx p hp, hy c hc]

/-- THE RESET STEP. At the first block of targets the running minimum is started from +∞: what it then holds is
    the least distance over the targets below row B. -/
theorem min_top_block {n m B : Nat} (S : Pts n) (T : Pts m) (i : Nat) (x : Pts B) (y : Pts B)
    (hx : IsBlock S i x) (hy : IsBlock T 0 y) (hB : B ≤ m) (p : Fin B) (hp : i * B + p.val < n) :
    min (⊤ : EReal) (nearest x y p) = nearestBelow S T B ⟨i * B + p.val, hp⟩ :=
  eq_of_forall_le_iff fun z => by
    rw [le_min_iff, le_nearest_iff, le_nearestBelow_iff]
    constructor
    · rintro ⟨-, h⟩ c hc
      have hc' : 0 * B + (⟨c.val, hc⟩ : Fin B).val < m := by simpa using c.isLt
      have e := dist_block S T i 0 x y hx hy p ⟨c.val, hc⟩ hp hc'
      have hcc : (⟨0 * B + (⟨c.val, hc⟩ : Fin B).val, hc'⟩ : Fin m) = c := Fin.ext (by simp)
      rw [hcc] at e
      exact e ▸ h ⟨c.val, hc⟩
    · intro h
      refine ⟨le_top, fun c => ?_⟩
      have hc' : 0 * B + c.val < m := by have := c.isLt; omega
      rw [dist_block S T i 0 x y hx hy p c hp hc']
      exact h _ (by show 0 * B + c.val < B; have := c.isLt; omega)

/-- THE ACCUMULATION STEP. The least distance over the targets below row j·B, met with the least distance to the
    rows of target block j, is the least distance over the targets below row (j+1)·B. -/
theorem min_below_block {n m B : Nat} (S : Pts n) (T : Pts m) (i j : Nat) (x : Pts B) (y : Pts B)
    (hx : IsBlock S i x) (hy : IsBlock T j y) (hB : (j + 1) * B ≤ m) (p : Fin B) (hp : i * B + p.val < n) :
    min (nearestBelow S T (j * B) ⟨i * B + p.val, hp⟩) (nearest x y p)
      = nearestBelow S T ((j + 1) * B) ⟨i * B + p.val, hp⟩ :=
  eq_of_forall_le_iff fun z => by
    rw [le_min_iff, le_nearest_iff, le_nearestBelow_iff, le_nearestBelow_iff]
    have hjB : (j + 1) * B = j * B + B := by ring
    constructor
    · rintro ⟨h1, h2⟩ c hc
      by_cases hlt : c.val < j * B
      · exact h1 c hlt
      · have hcB : c.val - j * B < B := by omega
        have hc' : j * B + (⟨c.val - j * B, hcB⟩ : Fin B).val < m := by show j * B + (c.val - j * B) < m; have := c.isLt; omega
        have e := dist_block S T i j x y hx hy p ⟨c.val - j * B, hcB⟩ hp hc'
        have hcc : (⟨j * B + (⟨c.val - j * B, hcB⟩ : Fin B).val, hc'⟩ : Fin m) = c :=
          Fin.ext (by show j * B + (c.val - j * B) = c.val; omega)
        rw [hcc] at e
        exact e ▸ h2 ⟨c.val - j * B, hcB⟩
    · intro h
      refine ⟨fun c hc => h c (by omega), fun c => ?_⟩
      have hc' : j * B + c.val < m := by have := c.isLt; omega
      rw [dist_block S T i j x y hx hy p c hp hc']
      exact h _ (by show j * B + c.val < (j + 1) * B; have := c.isLt; omega)

/-- The sum of every source point's nearest distance. -/
def total {n m : Nat} (s : Pts n) (t : Pts m) : EReal := ∑ r : Fin n, nearest s t r

/-- The mean over 16384 points of each direction, then the mean of the two: the operations both programs end with,
    the two divisors as the words they write. -/
def symmetricMean (a b : EReal) : EReal :=
  FloatOps.hostDivf (F := Ideal) (φ := .f32)
    (FloatOps.addf (F := Ideal) (φ := .f32)
      (FloatOps.hostDivf (F := Ideal) (φ := .f32) (Ideal.ofBits .f32 0x00000000#32 + a) (Ideal.ofBits .f32 0x46800000#32))
      (FloatOps.hostDivf (F := Ideal) (φ := .f32) (Ideal.ofBits .f32 0x00000000#32 + b) (Ideal.ofBits .f32 0x46800000#32)))
    (Ideal.ofBits .f32 0x40000000#32)

end Cert.Nearest

end
-- ==== Proof.TileNearest.lean ====
/-
  One tile of the kernel's body, read at an index over the extended reals. From a block of 1024 source points and a
  block of 1024 target points the body forms the 1024 × 1024 matrix of squared distances ‖s‖² + ‖t‖² − 2·⟨s, t⟩
  (the squared norms as lane sums of three squares, one laid along the rows and the other, transposed, along the
  columns; the inner products as a matrix product into zero of the two blocks, the narrowing of its operands being
  the identity here), takes each row's minimum from +∞, and meets it with what the output block held before. So
  row r of what it stores is  min (previous r) (nearest distance from source r to the block's targets).
-/
import proofs.«111481_j31696858644903_1_alg».proof.Proof.Gen.KernelIdeal.Skeleton
import proofs.«111481_j31696858644903_1_alg».proof.Proof.Dist
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Tile

open Cert.KernelIdeal Cert.KernelIdeal.Gen Idealize.ShloMosaic Idealize.ShloMosaic.ValueIdx Cert.Nearest

/-! ## Layout: a vector of row values as a column, a column as a row, and each spread over the matrix -/

/-- A vector of 1024 entries cast to one column, read at (r, 0), is entry r. -/
theorem column_apply {α : Type} (v : S1024.Idx → α) (h : S1024.ShapeCasts S1024x1) (r : Fin 1024) :
    shapeCast S1024x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A column spread over the matrix reads, at (r, c), the column's entry r. -/
theorem spread_column_apply {α : Type} (v : S1024x1.Idx → α) (h : S1024x1.Broadcasts S1024x1024) (r c : Fin 1024) :
    broadcastTo S1024x1024 v h (ix2 r c) = v (ix2 r (0 : Fin 1)) := by
  refine broadcastTo_apply v h (ix2 r c) (ix2 r (0 : Fin 1)) fun ax => ?_
  match ax with
  | ⟨0, _⟩ => show r.val = if (1024 : Nat) = 1 then 0 else r.val; rw [if_neg (by decide)]
  | ⟨1, _⟩ => show 0 = if (1 : Nat) = 1 then 0 else c.val; rw [if_pos rfl]

/-- A column turned into a row and spread over the matrix reads, at (r, c), the column's entry c. -/
theorem spread_row_apply {α : Type} (v : S1024x1.Idx → α) (ht : S1024x1.Transposes [1, 0] S1x1024)
    (h : S1x1024.Broadcasts S1024x1024) (r c : Fin 1024) :
    broadcastTo S1024x1024 (transpose S1x1024 [1, 0] v ht) h (ix2 r c) = v (ix2 c (0 : Fin 1)) :=
  (broadcastTo_1b_ab_apply (transpose S1x1024 [1, 0] v ht) h r c).trans (transpose_ix2_apply v ht (0 : Fin 1) c)

/-! ## The two lane reductions -/

/-- A row's squared norm: the lane sum of the three squares. -/
theorem sumsq_apply (x : FVec Ideal S1024x3 .f32) (h : S1024x3.Reduces [1] S1024) (hφ : FKind.Formats .f32)
    (hacc : (0x00000000#32 : BitVec 32) = FKind.add.neutral .f32 hφ) (r : Fin 1024) :
    multiReduction .add [1] S1024 (mulf x x) 0x00000000#32 h hφ hacc (ix1 r)
      = ∑ k : Fin 3, x (ix2 r k) * x (ix2 r k) := by
  refine (Ideal.multiReduction_add_single (mulf x x) 0x00000000#32 h hφ hacc (ix1 r)).trans ?_
  exact Finset.sum_congr rfl fun k _ => congrArg (fun i => x i * x i)
    (funext fun a => Fin.ext (by match a with | ⟨0, _⟩ => rfl | ⟨1, _⟩ => rfl))

/-- A row's minimum taken from +∞ lies above z exactly when every entry of the row does. -/
theorem le_rowmin_iff (M : FVec Ideal S1024x1024 .f32) (h : S1024x1024.Reduces [1] S1024) (hφ : FKind.Formats .f32)
    (hacc : (0x7F800000#32 : BitVec 32) = FKind.minimumf.neutral .f32 hφ) (r : Fin 1024) (z : EReal) :
    z ≤ multiReduction .minimumf [1] S1024 M 0x7F800000#32 h hφ hacc (ix1 r) ↔ ∀ c : Fin 1024, z ≤ M (ix2 r c) := by
  have e := (multiReduction_minimumf_eq_fold M 0x7F800000#32 h hφ hacc (ix1 r)).trans
      (h.fold_filter_drop_single _ _ M (ix1 r))
  rw [e]
  refine Iff.trans (b := z ≤ Ideal.ofBits .f32 0x7F800000#32
      ∧ ∀ x ∈ (Finset.univ : Finset (Fin (S1024x1024.size 1))), z ≤ (M ∘ h.lift (ix1 r)) x) (Finset.le_fold_min z) ?_
  rw [ofBits_inf]
  constructor
  · rintro ⟨-, hh⟩ c
    have := hh c (Finset.mem_univ c)
    have hl : h.lift (ix1 r) c = ix2 r c := funext fun a => Fin.ext (by match a with | ⟨0, _⟩ => rfl | ⟨1, _⟩ => rfl)
    simpa [Function.comp, hl] using this
  · intro hh
    refine ⟨le_top, fun c _ => ?_⟩
    have hl : h.lift (ix1 r) c = ix2 r c := funext fun a => Fin.ext (by match a with | ⟨0, _⟩ => rfl | ⟨1, _⟩ => rfl)
    show z ≤ M (h.lift (ix1 r) c)
    rw [hl]; exact hh c

/-! ## The inner products: the matrix product into zero -/

theorem lhs_axis0 (i : S1024x1024.Idx) (q : dot_S1024x3_S3x1024_S1024x1024_1_0_0_1_n_n.contr.Idx) :
    (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide),
    dif_pos (show (0 : Fin S1024x3.rank) ∈ dot_S1024x3_S3x1024_S1024x1024_1_0_0_1_n_n.lhsNonContracting by decide)]
  rfl
theorem lhs_axis1 (i : S1024x1024.Idx) (q : dot_S1024x3_S3x1024_S1024x1024_1_0_0_1_n_n.contr.Idx) :
    (dot_S1024x3_S3x1024_S1024x1024_1_0_0_1_n_n.lhsIdx i q 1).val = (q ⟨0, by decide⟩).val :=
  dot_S1024x3_S3x1024_S1024x1024_1_0_0_1_n_n.lhsIdx_val_of_single rfl i q
theorem rhs_axis0 (i : S1024x1024.Idx) (q : dot_S1024x3_S3x1024_S1024x1024_1_0_0_1_n_n.contr.Idx) :
    (dot_S1024x3_S3x1024_S1024x1024_1_0_0_1_n_n.rhsIdx i q 0).val = (q ⟨0, by decide⟩).val :=
  dot_S1024x3_S3x1024_S1024x1024_1_0_0_1_n_n.rhsIdx_val_of_single rfl i q
theorem rhs_axis1 (i : S1024x1024.Idx) (q : dot_S1024x3_S3x1024_S1024x1024_1_0_0_1_n_n.contr.Idx) :
    (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide),
    dif_pos (show (1 : Fin S3x1024.rank) ∈ dot_S1024x3_S3x1024_S1024x1024_1_0_0_1_n_n.rhsNonContracting by decide)]
  rfl

/-- Entry (r, c) of the product of a 1024 × 3 block with a 3 × 1024 one, accumulated into zero: the sum over the three
    coordinates of the products. -/
theorem inner_apply {φ₁ φ₂ : FTy} (a : FVec Ideal S1024x3 φ₁) (b : FVec Ideal S3x1024 φ₂) (r c : Fin 1024) :
    matmul dot_S1024x3_S3x1024_S1024x1024_1_0_0_1_n_n none a b (constant S1024x1024 .f32 0x00000000#32) (ix2 r c)
      = ∑ k : Fin 3, a (ix2 r k) * b (ix2 k c) := by
  refine (Ideal.matmul_constant_zero_apply dot_S1024x3_S3x1024_S1024x1024_1_0_0_1_n_n none a b (ix2 r c)).trans ?_
  rw [← Equiv.sum_comp (ValueIdx.contrEquiv1 dot_S1024x3_S3x1024_S1024x1024_1_0_0_1_n_n 3 rfl rfl).symm]
  refine Finset.sum_congr rfl fun k _ => ?_
  have hk := ValueIdx.contrEquiv1_symm_val dot_S1024x3_S3x1024_S1024x1024_1_0_0_1_n_n 3 rfl rfl k
  have el : dot_S1024x3_S3x1024_S1024x1024_1_0_0_1_n_n.lhsIdx (ix2 r c)
      ((ValueIdx.contrEquiv1 dot_S1024x3_S3x1024_S1024x1024_1_0_0_1_n_n 3 rfl rfl).symm k) = ix2 r k :=
    funext fun ax => Fin.ext (by
      match ax with
      | ⟨0, _⟩ => exact lhs_axis0 _ _
      | ⟨1, _⟩ => exact (lhs_axis1 _ _).trans hk)
  have er : dot_S1024x3_S3x1024_S1024x1024_1_0_0_1_n_n.rhsIdx (ix2 r c)
      ((ValueIdx.contrEquiv1 dot_S1024x3_S3x1024_S1024x1024_1_0_0_1_n_n 3 rfl rfl).symm k) = ix2 k c :=
    funext fun ax => Fin.ext (by
      match ax with
      | ⟨0, _⟩ => exact (rhs_axis0 _ _).trans hk
      | ⟨1, _⟩ => exact rhs_axis1 _ _)
  rw [el, er]

/-! ## The payloads -/

/-- The reset stores +∞ in every row. -/
theorem reset_apply (i : S1024x1.Idx) : (k0_pay1 (F := Ideal)) i = (⊤ : EReal) := ofBits_inf

/-- Row r of the update: what the block held, met with the nearest distance from source r to the block's targets. -/
theorem update_apply (x0 x1 : FVec Ideal S1024x3 .f32) (xo : FVec Ideal S1024x1 .f32) (r : Fin 1024) :
    k0_pay2 x0 x1 xo (ix2 r (0 : Fin 1)) = min (xo (ix2 r (0 : Fin 1))) (nearest x0 x1 r) := by
  unfold k0_pay2
  dsimp only
  refine congrArg₂ min (congrFun (shapeCast_self xo _) _) ?_
  refine (column_apply _ _ r).trans ?_
  refine eq_of_forall_le_iff fun z => ?_
  rw [le_nearest_iff]
  refine (le_rowmin_iff _ _ _ _ r z).trans (forall_congr' fun c => ?_)
  have hd : ∀ (A B C D : FVec Ideal S1024x1024 .f32), subf (addf A B) (mulf C D) (ix2 r c)
      = (A (ix2 r c) + B (ix2 r c)) - C (ix2 r c) * D (ix2 r c) := fun _ _ _ _ => rfl
  rw [hd, spread_column_apply, spread_row_apply, column_apply, column_apply]
  refine Iff.of_eq (congrArg (z ≤ ·) ?_)
  unfold Cert.Nearest.dist
  refine congrArg₂ (· - ·) (congrArg₂ (· + ·) (sumsq_apply x0 _ _ _ r) (sumsq_apply x1 _ _ _ c))
    (congrArg₂ (· * ·) (show broadcast S1024x1024 (FloatOps.ofBits (F := Ideal) .f32 0x40000000#32) (ix2 r c) = two from rfl) ?_)
  refine (inner_apply _ _ r c).trans (Finset.sum_congr rfl fun k _ => ?_)
  exact congrArg (x0 (ix2 r k) * ·) (transpose_ix2_apply (truncf .bf16 x1 bitsLt_bf16_f32) transposes_S1024x3_p1_0_S3x1024 k c)

/-- The second launch runs the same body. -/
theorem reset_eq : (k1_pay1 (F := Ideal)) = k0_pay1 := rfl
theorem update_eq (x0 x1 : FVec Ideal S1024x3 .f32) (xo : FVec Ideal S1024x1 .f32) :
    k1_pay2 (F := Ideal) x0 x1 xo = k0_pay2 (F := Ideal) x0 x1 xo := rfl
theorem reset_apply1 (i : S1024x1.Idx) : (k1_pay1 (F := Ideal)) i = (⊤ : EReal) := reset_apply i
theorem update_apply1 (x0 x1 : FVec Ideal S1024x3 .f32) (xo : FVec Ideal S1024x1 .f32) (r : Fin 1024) :
    k1_pay2 x0 x1 xo (ix2 r (0 : Fin 1)) = min (xo (ix2 r (0 : Fin 1))) (nearest x0 x1 r) :=
  (congrFun (update_eq x0 x1 xo) _).trans (update_apply x0 x1 xo r)

end Cert.KernelIdeal.Tile

end
-- ==== Proof.Region0.lean ====
/-
  The first launch, read as values over the extended reals. Its grid is 16 row tiles × 16 column tiles, walked row tile
  by row tile; at point n (row tile n / 16, column tile n % 16) the body sees source rows (n / 16)·1024 … and target
  rows (n % 16)·1024 …. The output block of a row tile stays in place while its 16 column tiles pass: the first of
  them resets it to +∞ and then takes the tile's row minima, each later one meets it with its own. So after point n
  row p of the block holds the least squared distance from source row (n / 16)·1024 + p to the targets below row
  (n % 16 + 1)·1024 — by induction on the point, through the two lattice steps — and after a row tile's last point,
  which is when the block is written back, to ALL targets. The 16 blocks written back tile the result array, which
  therefore ends holding every source point's nearest distance.
-/
import proofs.«111481_j31696858644903_1_alg».proof.Proof.Gen.KernelIdeal.Frame
import proofs.«111481_j31696858644903_1_alg».proof.Proof.TileNearest
import Idealize.ShloMosaic.Lib.Pipeline.Value
import Idealize.ShloMosaic.Lib.Tactic

set_option maxRecDepth 16384

noncomputable section

namespace Cert.KernelIdeal.Region0

open Cert.KernelIdeal Cert.KernelIdeal.Gen Idealize.ShloMosaic Idealize.ShloMosaic.TcCoe Idealize.ShloMosaic.Tactic
open Idealize.SL.Sem Idealize.ShloMosaic.ValueIdx Cert.Nearest Cert.KernelIdeal.Tile
open Idealize.ShloMosaic.Pipeline (Dat)

theorem hz : (![0, 0] : Fin 2 → Nat) = fun _ => 0 := funext fun a => by fin_cases a <;> rfl

/-! ## What each case of the body leaves in the output block -/

section AnyValues
variable {F : FTy → Type} [FloatOps F]

/-- A later column tile: the update over what the block held. -/
theorem out_B (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : ¬cond0_0 i) (x0 x1 : Vec F S1024x3 .f32) (xo : Vec F S1024x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz]
  simp only [View.readAt_eq_ld, h2.read_unread, h3.read_unread, h4.read_unread, View.ld_unit_zero (S := S1024x3) hz,
    View.ld_unit_zero (S := S1024x1) hz]

/-- The first column tile: the update over the reset just stored. -/
theorem out_A (c : Dev nD) (i : grid0.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : cond0_0 i) (x0 x1 : Vec F S1024x3 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x3) hz,
    View.ld_unit_zero (S := S1024x1) hz]

end AnyValues

/-! ## The blocks a point sees -/

variable (V : (c : Dev nD) → (b : Ref sig .tc) → Buf (Elt Ideal) ((c : Thread nD τ).loc b))

/-- The sources and the targets of this launch, as the region finds them. -/
abbrev src (c : Dev nD) : Pts 16384 := V c main_arg0
abbrev tgt (c : Dev nD) : Pts 16384 := V c main_arg1
/-- The two input blocks at a point. -/
abbrev sblk (c : Dev nD) (t : Fin cfg0.N) : Pts 1024 := iblk0 V c 0 t
abbrev tblk (c : Dev nD) (t : Fin cfg0.N) : Pts 1024 := iblk0 V c 1 t

/-- The printed index maps over the grid: the sources' and the output's block index is the row tile, the targets' the
    column tile. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0 :=
  (by decide +kernel : ∀ t : Fin grid0.N, _)

theorem sblk_isBlock (c : Dev nD) (t : Fin cfg0.N) : IsBlock (src V c) (t.val / 16) (sblk V c t) := by
  intro p hp k
  obtain ⟨e0, e1, -⟩ := idx_facts t
  show iblk0 V c 0 t (ix2 p k) = V c main_arg0 _
  unfold iblk0
  rw [View.read_apply]
  show V c main_arg0 _ = V c main_arg0 _
  refine congrArg (V c main_arg0) (funext fun a => Fin.ext ?_)
  match a with
  | ⟨0, _⟩ => show win0_0.index t (0 : Fin 2) * 1024 + 1 * p.val = t.val / 16 * 1024 + p.val; rw [e0]; omega
  | ⟨1, _⟩ => show win0_0.index t (1 : Fin 2) * 3 + 1 * k.val = k.val; rw [e1]; omega

theorem tblk_isBlock (c : Dev nD) (t : Fin cfg0.N) : IsBlock (tgt V c) (t.val % 16) (tblk V c t) := by
  intro p hp k
  obtain ⟨-, -, e0, e1, -⟩ := idx_facts t
  show iblk0 V c 1 t (ix2 p k) = V c main_arg1 _
  unfold iblk0
  rw [View.read_apply]
  show V c main_arg1 _ = V c main_arg1 _
  refine congrArg (V c main_arg1) (funext fun a => Fin.ext ?_)
  match a with
  | ⟨0, _⟩ => show win0_1.index t (0 : Fin 2) * 1024 + 1 * p.val = t.val % 16 * 1024 + p.val; rw [e0]; omega
  | ⟨1, _⟩ => show win0_1.index t (1 : Fin 2) * 3 + 1 * k.val = k.val; rw [e1]; omega

/-! ## The running minimum -/

theorem row_lt (n : ℕ) (hn : n < cfg0.N) (p : Fin 1024) : n / 16 * 1024 + p.val < 16384 := by
  have hN : n < 256 := lt_of_lt_of_eq hn (show cfg0.N = 256 from N_0)
  have := p.isLt
  omega

/-- After point n, row p of the output block holds the least distance from source row (n / 16)·1024 + p to the targets
    below row (n % 16 + 1)·1024. -/
theorem outsAt_apply (c : Dev nD) : ∀ (n : ℕ) (hn : n < cfg0.N) (p : Fin 1024),
    outsAt0 V c n hn (ix2 p (0 : Fin 1))
      = nearestBelow (src V c) (tgt V c) ((n % 16 + 1) * 1024) ⟨n / 16 * 1024 + p.val, row_lt n hn p⟩
  | n, hn, p => by
    have hN : n < 256 := lt_of_lt_of_eq hn (show cfg0.N = 256 from N_0)
    have hx := sblk_isBlock V c ⟨n, hn⟩
    have hy := tblk_isBlock V c ⟨n, hn⟩
    by_cases h0 : n % 16 = 0
    · -- the row tile's first column tile
      have e := outsAt0_A V c ⟨n, hn⟩ h0
      rw [show outsAt0 V c n hn = outsAt0 V c (⟨n, hn⟩ : Fin cfg0.N).val (⟨n, hn⟩ : Fin cfg0.N).isLt from rfl, e, out_A]
      refine (update_apply (sblk V c ⟨n, hn⟩) (tblk V c ⟨n, hn⟩) (k0_pay1 (F := Ideal)) p).trans ?_
      rw [reset_apply]
      have hy0 : IsBlock (tgt V c) 0 (tblk V c ⟨n, hn⟩) := by
        have : (⟨n, hn⟩ : Fin cfg0.N).val % 16 = 0 := h0
        rw [this] at hy; exact hy
      refine (min_top_block (src V c) (tgt V c) (n / 16) (sblk V c ⟨n, hn⟩) (tblk V c ⟨n, hn⟩) hx hy0 (by decide) p
        (row_lt n hn p)).trans ?_
      exact congrArg (fun b => nearestBelow (src V c) (tgt V c) b ⟨n / 16 * 1024 + p.val, row_lt n hn p⟩) (by omega)
    · -- a later column tile of the same row tile
      obtain ⟨k, rfl⟩ : ∃ k, n = k + 1 := ⟨n - 1, by omega⟩
      have e := outsAt0_B V c ⟨k + 1, hn⟩ h0
      rw [show outsAt0 V c (k + 1) hn = outsAt0 V c (⟨k + 1, hn⟩ : Fin cfg0.N).val (⟨k + 1, hn⟩ : Fin cfg0.N).isLt from rfl, e, out_B]
      refine (update_apply (sblk V c ⟨k + 1, hn⟩) (tblk V c ⟨k + 1, hn⟩) _ p).trans ?_
      have ih := outsAt_apply c k (Nat.lt_of_succ_lt hn) p
      have hprev : outsAt0 V c ((⟨k + 1, hn⟩ : Fin cfg0.N).val - 1) (Nat.lt_of_le_of_lt (Nat.sub_le _ _) (⟨k + 1, hn⟩ : Fin cfg0.N).isLt)
          (ix2 p (0 : Fin 1))
          = nearestBelow (src V c) (tgt V c) ((k + 1) % 16 * 1024) ⟨(k + 1) / 16 * 1024 + p.val, row_lt (k + 1) hn p⟩ := by
        refine ih.trans ?_
        have hb : (k % 16 + 1) * 1024 = (k + 1) % 16 * 1024 := by omega
        have hr : k / 16 * 1024 + p.val = (k + 1) / 16 * 1024 + p.val := by omega
        rw [show (⟨k / 16 * 1024 + p.val, row_lt k (Nat.lt_of_succ_lt hn) p⟩ : Fin 16384)
            = ⟨(k + 1) / 16 * 1024 + p.val, row_lt (k + 1) hn p⟩ from Fin.ext hr, hb]
      rw [hprev]
      exact min_below_block (src V c) (tgt V c) ((k + 1) / 16) ((k + 1) % 16) (sblk V c ⟨k + 1, hn⟩) (tblk V c ⟨k + 1, hn⟩)
        hx hy (by omega) p (row_lt (k + 1) hn p)

/-! ## The result array -/

/-- Every source point's nearest distance, as contents of the launch's result array. -/
def result (c : Dev nD) : Buf (Elt Ideal) ((c : Thread nD τ).loc main_v0) :=
  fun i => nearest (src V c) (tgt V c) ⟨(i 0).val, (i 0).isLt⟩

-- (this proof reads the 16384-row result array at an index of a block; the file's recursion depth does not suffice for it)
set_option maxRecDepth 200000 in
/-- What a row tile's last point writes back is that row tile's block of the result. -/
theorem flushed_eq (c : Dev nD) (t : Fin cfg0.N) (hf : (cfg0.win 2).flush t = true) :
    (dat0 V c).flushed 2 t = ((cfg0.win 2).blk t).view.read (Elt Ideal) (result V c) := by
  have hN : t.val < 256 := lt_of_lt_of_eq t.isLt (show cfg0.N = 256 from N_0)
  have h15 : t.val % 16 = 15 := (flush0_2 t).mp hf
  obtain ⟨-, -, -, -, e0, e1⟩ := idx_facts t
  show (cfg0.win 2).cut (grid0.coords t) ((dat0 V c).after 2 t) = _
  rw [after0_2]
  funext y
  obtain ⟨p, q, rfl⟩ : ∃ (p : Fin 1024) (q : Fin 1), y = ix2 p q := ⟨y 0, y 1, eq_ix2 y⟩
  obtain rfl : q = 0 := Subsingleton.elim _ _
  rw [View.read_apply]
  have hx : (cfg0.win 2).xinj (grid0.coords t) (ix2 p (0 : Fin 1)) = (ix2 p (0 : Fin 1) : S1024x1.Idx) :=
    funext fun a => Fin.ext (by match a with | ⟨0, _⟩ => rfl | ⟨1, _⟩ => rfl)
  refine (congrArg (outsAt0 V c t.val t.isLt) hx).trans ?_
  rw [outsAt_apply V c t.val t.isLt p, nearestBelow_all _ _ _ (by omega)]
  unfold result
  refine congrArg (nearest (src V c) (tgt V c)) (Fin.ext ?_)
  show t.val / 16 * 1024 + p.val = win0_2.index t (0 : Fin 2) * 1024 + 1 * p.val
  rw [e0]; omega

/-- An index of the result array is in point t's block iff each coordinate is in the block's range on its axis. -/
theorem mem_blk (t : Fin cfg0.N) (i : S16384x1.Idx) :
    i ∈ ((cfg0.win 2).blk t).view.set ↔ ∀ a : Fin 2, win0_2.index t a * S1024x1.size a ≤ (i a).val
      ∧ (i a).val < win0_2.index t a * S1024x1.size a + S1024x1.size a := by
  show i ∈ ((View.whole main_v0).slice (win0_2.rect t)).set ↔ _
  rw [View.set_slice_whole, Rect.mem_set_unit]
  exact Iff.rfl

/-- Every row of the result array lies in the block some row tile's last point writes back. -/
theorem cover (i : S16384x1.Idx) : ∃ t : Fin cfg0.N, (cfg0.win 2).flush t = true ∧ i ∈ ((cfg0.win 2).blk t).view.set := by
  have hi0 : (i 0).val < 16384 := (i 0).isLt
  have hi1 : (i 1).val < 1 := (i 1).isLt
  have ht : (i 0).val / 1024 * 16 + 15 < cfg0.N := by rw [show cfg0.N = 256 from N_0]; omega
  obtain ⟨-, -, -, -, e0, e1⟩ := idx_facts ⟨(i 0).val / 1024 * 16 + 15, ht⟩
  refine ⟨⟨(i 0).val / 1024 * 16 + 15, ht⟩, (flush0_2 _).mpr (by show ((i 0).val / 1024 * 16 + 15) % 16 = 15; omega), ?_⟩
  rw [mem_blk]
  intro a
  match a with
  | ⟨0, _⟩ =>
    show win0_2.index ⟨(i 0).val / 1024 * 16 + 15, ht⟩ (0 : Fin 2) * 1024 ≤ (i 0).val
      ∧ (i 0).val < win0_2.index ⟨(i 0).val / 1024 * 16 + 15, ht⟩ (0 : Fin 2) * 1024 + 1024
    rw [e0]
    show ((i 0).val / 1024 * 16 + 15) / 16 * 1024 ≤ (i 0).val ∧ (i 0).val < ((i 0).val / 1024 * 16 + 15) / 16 * 1024 + 1024
    omega
  | ⟨1, _⟩ =>
    show win0_2.index ⟨(i 0).val / 1024 * 16 + 15, ht⟩ (1 : Fin 2) * 1 ≤ (i 1).val
      ∧ (i 1).val < win0_2.index ⟨(i 0).val / 1024 * 16 + 15, ht⟩ (1 : Fin 2) * 1 + 1
    rw [e1]; omega

/-- The launch's result array ends holding every source point's nearest distance: the 16 blocks written back tile it. -/
theorem final (c : Dev nD) : (dat0 V c).arrAt 2 cfg0.N = result V c :=
  (dat0 V c).arrAt_eq_of_cover 2 (result V c) (flushed_eq V c) cover

end Cert.KernelIdeal.Region0

end
-- ==== Proof.Region1.lean ====
/-
  The second launch, read as values over the extended reals. Its grid is 16 row tiles × 16 column tiles, walked row tile
  by row tile; at point n (row tile n / 16, column tile n % 16) the body sees source rows (n / 16)·1024 … and target
  rows (n % 16)·1024 …. The output block of a row tile stays in place while its 16 column tiles pass: the first of
  them resets it to +∞ and then takes the tile's row minima, each later one meets it with its own. So after point n
  row p of the block holds the least squared distance from source row (n / 16)·1024 + p to the targets below row
  (n % 16 + 1)·1024 — by induction on the point, through the two lattice steps — and after a row tile's last point,
  which is when the block is written back, to ALL targets. The 16 blocks written back tile the result array, which
  therefore ends holding every source point's nearest distance.
-/
import proofs.«111481_j31696858644903_1_alg».proof.Proof.Gen.KernelIdeal.Frame
import proofs.«111481_j31696858644903_1_alg».proof.Proof.TileNearest
import Idealize.ShloMosaic.Lib.Pipeline.Value
import Idealize.ShloMosaic.Lib.Tactic

set_option maxRecDepth 16384

noncomputable section

namespace Cert.KernelIdeal.Region1

open Cert.KernelIdeal Cert.KernelIdeal.Gen Idealize.ShloMosaic Idealize.ShloMosaic.TcCoe Idealize.ShloMosaic.Tactic
open Idealize.SL.Sem Idealize.ShloMosaic.ValueIdx Cert.Nearest Cert.KernelIdeal.Tile
open Idealize.ShloMosaic.Pipeline (Dat)

theorem hz : (![0, 0] : Fin 2 → Nat) = fun _ => 0 := funext fun a => by fin_cases a <;> rfl

/-! ## What each case of the body leaves in the output block -/

section AnyValues
variable {F : FTy → Type} [FloatOps F]

/-- A later column tile: the update over what the block held. -/
theorem out_B (c : Dev nD) (i : grid1.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : ¬cond1_0 i) (x0 x1 : Vec F S1024x3 .f32) (xo : Vec F S1024x1 .f32) :
    out1_B_2 c i a2 h2 a3 h3 a4 h4 hc x0 x1 xo = k1_pay2 x0 x1 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz]
  simp only [View.readAt_eq_ld, h2.read_unread, h3.read_unread, h4.read_unread, View.ld_unit_zero (S := S1024x3) hz,
    View.ld_unit_zero (S := S1024x1) hz]

/-- The first column tile: the update over the reset just stored. -/
theorem out_A (c : Dev nD) (i : grid1.Coords) (a2 : Memref sig .tc .vmem S1024x3 .f32) (h2 : a2.IsWhole)
    (a3 : Memref sig .tc .vmem S1024x3 .f32) (h3 : a3.IsWhole) (a4 : Memref sig .tc .vmem S1024x1 .f32) (h4 : a4.IsWhole)
    (hc : cond1_0 i) (x0 x1 : Vec F S1024x3 .f32) :
    out1_A_2 c i a2 h2 a3 h3 a4 h4 hc x0 x1 = k1_pay2 x0 x1 (k1_pay1 (F := F)) := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1024x1) hz, View.readCov_unit_zero (S := S1024x1) _ hz]
  simp only [View.readAt_eq_ld, h2.read_unread, h3.read_unread, View.ld_unit_zero (S := S1024x3) hz,
    View.ld_unit_zero (S := S1024x1) hz]

end AnyValues

/-! ## The blocks a point sees -/

variable (V : (c : Dev nD) → (b : Ref sig .tc) → Buf (Elt Ideal) ((c : Thread nD τ).loc b))

/-- The sources and the targets of this launch, as the region finds them. -/
abbrev src (c : Dev nD) : Pts 16384 := V c main_arg1
abbrev tgt (c : Dev nD) : Pts 16384 := V c main_arg0
/-- The two input blocks at a point. -/
abbrev sblk (c : Dev nD) (t : Fin cfg1.N) : Pts 1024 := iblk1 V c 0 t
abbrev tblk (c : Dev nD) (t : Fin cfg1.N) : Pts 1024 := iblk1 V c 1 t

/-- The printed index maps over the grid: the sources' and the output's block index is the row tile, the targets' the
    column tile. -/
theorem idx_facts : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

theorem sblk_isBlock (c : Dev nD) (t : Fin cfg1.N) : IsBlock (src V c) (t.val / 16) (sblk V c t) := by
  intro p hp k
  obtain ⟨e0, e1, -⟩ := idx_facts t
  show iblk1 V c 0 t (ix2 p k) = V c main_arg1 _
  unfold iblk1
  rw [View.read_apply]
  show V c main_arg1 _ = V c main_arg1 _
  refine congrArg (V c main_arg1) (funext fun a => Fin.ext ?_)
  match a with
  | ⟨0, _⟩ => show win1_0.index t (0 : Fin 2) * 1024 + 1 * p.val = t.val / 16 * 1024 + p.val; rw [e0]; omega
  | ⟨1, _⟩ => show win1_0.index t (1 : Fin 2) * 3 + 1 * k.val = k.val; rw [e1]; omega

theorem tblk_isBlock (c : Dev nD) (t : Fin cfg1.N) : IsBlock (tgt V c) (t.val % 16) (tblk V c t) := by
  intro p hp k
  obtain ⟨-, -, e0, e1, -⟩ := idx_facts t
  show iblk1 V c 1 t (ix2 p k) = V c main_arg0 _
  unfold iblk1
  rw [View.read_apply]
  show V c main_arg0 _ = V c main_arg0 _
  refine congrArg (V c main_arg0) (funext fun a => Fin.ext ?_)
  match a with
  | ⟨0, _⟩ => show win1_1.index t (0 : Fin 2) * 1024 + 1 * p.val = t.val % 16 * 1024 + p.val; rw [e0]; omega
  | ⟨1, _⟩ => show win1_1.index t (1 : Fin 2) * 3 + 1 * k.val = k.val; rw [e1]; omega

/-! ## The running minimum -/

theorem row_lt (n : ℕ) (hn : n < cfg1.N) (p : Fin 1024) : n / 16 * 1024 + p.val < 16384 := by
  have hN : n < 256 := lt_of_lt_of_eq hn (show cfg1.N = 256 from N_1)
  have := p.isLt
  omega

/-- After point n, row p of the output block holds the least distance from source row (n / 16)·1024 + p to the targets
    below row (n % 16 + 1)·1024. -/
theorem outsAt_apply (c : Dev nD) : ∀ (n : ℕ) (hn : n < cfg1.N) (p : Fin 1024),
    outsAt1 V c n hn (ix2 p (0 : Fin 1))
      = nearestBelow (src V c) (tgt V c) ((n % 16 + 1) * 1024) ⟨n / 16 * 1024 + p.val, row_lt n hn p⟩
  | n, hn, p => by
    have hN : n < 256 := lt_of_lt_of_eq hn (show cfg1.N = 256 from N_1)
    have hx := sblk_isBlock V c ⟨n, hn⟩
    have hy := tblk_isBlock V c ⟨n, hn⟩
    by_cases h0 : n % 16 = 0
    · -- the row tile's first column tile
      have e := outsAt1_A V c ⟨n, hn⟩ h0
      rw [show outsAt1 V c n hn = outsAt1 V c (⟨n, hn⟩ : Fin cfg1.N).val (⟨n, hn⟩ : Fin cfg1.N).isLt from rfl, e, out_A]
      refine (update_apply1 (sblk V c ⟨n, hn⟩) (tblk V c ⟨n, hn⟩) (k1_pay1 (F := Ideal)) p).trans ?_
      rw [reset_apply1]
      have hy0 : IsBlock (tgt V c) 0 (tblk V c ⟨n, hn⟩) := by
        have : (⟨n, hn⟩ : Fin cfg1.N).val % 16 = 0 := h0
        rw [this] at hy; exact hy
      refine (min_top_block (src V c) (tgt V c) (n / 16) (sblk V c ⟨n, hn⟩) (tblk V c ⟨n, hn⟩) hx hy0 (by decide) p
        (row_lt n hn p)).trans ?_
      exact congrArg (fun b => nearestBelow (src V c) (tgt V c) b ⟨n / 16 * 1024 + p.val, row_lt n hn p⟩) (by omega)
    · -- a later column tile of the same row tile
      obtain ⟨k, rfl⟩ : ∃ k, n = k + 1 := ⟨n - 1, by omega⟩
      have e := outsAt1_B V c ⟨k + 1, hn⟩ h0
      rw [show outsAt1 V c (k + 1) hn = outsAt1 V c (⟨k + 1, hn⟩ : Fin cfg1.N).val (⟨k + 1, hn⟩ : Fin cfg1.N).isLt from rfl, e, out_B]
      refine (update_apply1 (sblk V c ⟨k + 1, hn⟩) (tblk V c ⟨k + 1, hn⟩) _ p).trans ?_
      have ih := outsAt_apply c k (Nat.lt_of_succ_lt hn) p
      have hprev : outsAt1 V c ((⟨k + 1, hn⟩ : Fin cfg1.N).val - 1) (Nat.lt_of_le_of_lt (Nat.sub_le _ _) (⟨k + 1, hn⟩ : Fin cfg1.N).isLt)
          (ix2 p (0 : Fin 1))
          = nearestBelow (src V c) (tgt V c) ((k + 1) % 16 * 1024) ⟨(k + 1) / 16 * 1024 + p.val, row_lt (k + 1) hn p⟩ := by
        refine ih.trans ?_
        have hb : (k % 16 + 1) * 1024 = (k + 1) % 16 * 1024 := by omega
        have hr : k / 16 * 1024 + p.val = (k + 1) / 16 * 1024 + p.val := by omega
        rw [show (⟨k / 16 * 1024 + p.val, row_lt k (Nat.lt_of_succ_lt hn) p⟩ : Fin 16384)
            = ⟨(k + 1) / 16 * 1024 + p.val, row_lt (k + 1) hn p⟩ from Fin.ext hr, hb]
      rw [hprev]
      exact min_below_block (src V c) (tgt V c) ((k + 1) / 16) ((k + 1) % 16) (sblk V c ⟨k + 1, hn⟩) (tblk V c ⟨k + 1, hn⟩)
        hx hy (by omega) p (row_lt (k + 1) hn p)

/-! ## The result array -/

/-- Every source point's nearest distance, as contents of the launch's result array. -/
def result (c : Dev nD) : Buf (Elt Ideal) ((c : Thread nD τ).loc main_v1) :=
  fun i => nearest (src V c) (tgt V c) ⟨(i 0).val, (i 0).isLt⟩

-- (this proof reads the 16384-row result array at an index of a block; the file's recursion depth does not suffice for it)
set_option maxRecDepth 200000 in
/-- What a row tile's last point writes back is that row tile's block of the result. -/
theorem flushed_eq (c : Dev nD) (t : Fin cfg1.N) (hf : (cfg1.win 2).flush t = true) :
    (dat1 V c).flushed 2 t = ((cfg1.win 2).blk t).view.read (Elt Ideal) (result V c) := by
  have hN : t.val < 256 := lt_of_lt_of_eq t.isLt (show cfg1.N = 256 from N_1)
  have h15 : t.val % 16 = 15 := (flush1_2 t).mp hf
  obtain ⟨-, -, -, -, e0, e1⟩ := idx_facts t
  show (cfg1.win 2).cut (grid1.coords t) ((dat1 V c).after 2 t) = _
  rw [after1_2]
  funext y
  obtain ⟨p, q, rfl⟩ : ∃ (p : Fin 1024) (q : Fin 1), y = ix2 p q := ⟨y 0, y 1, eq_ix2 y⟩
  obtain rfl : q = 0 := Subsingleton.elim _ _
  rw [View.read_apply]
  have hx : (cfg1.win 2).xinj (grid1.coords t) (ix2 p (0 : Fin 1)) = (ix2 p (0 : Fin 1) : S1024x1.Idx) :=
    funext fun a => Fin.ext (by match a with | ⟨0, _⟩ => rfl | ⟨1, _⟩ => rfl)
  refine (congrArg (outsAt1 V c t.val t.isLt) hx).trans ?_
  rw [outsAt_apply V c t.val t.isLt p, nearestBelow_all _ _ _ (by omega)]
  unfold result
  refine congrArg (nearest (src V c) (tgt V c)) (Fin.ext ?_)
  show t.val / 16 * 1024 + p.val = win1_2.index t (0 : Fin 2) * 1024 + 1 * p.val
  rw [e0]; omega

/-- An index of the result array is in point t's block iff each coordinate is in the block's range on its axis. -/
theorem mem_blk (t : Fin cfg1.N) (i : S16384x1.Idx) :
    i ∈ ((cfg1.win 2).blk t).view.set ↔ ∀ a : Fin 2, win1_2.index t a * S1024x1.size a ≤ (i a).val
      ∧ (i a).val < win1_2.index t a * S1024x1.size a + S1024x1.size a := by
  show i ∈ ((View.whole main_v1).slice (win1_2.rect t)).set ↔ _
  rw [View.set_slice_whole, Rect.mem_set_unit]
  exact Iff.rfl

/-- Every row of the result array lies in the block some row tile's last point writes back. -/
theorem cover (i : S16384x1.Idx) : ∃ t : Fin cfg1.N, (cfg1.win 2).flush t = true ∧ i ∈ ((cfg1.win 2).blk t).view.set := by
  have hi0 : (i 0).val < 16384 := (i 0).isLt
  have hi1 : (i 1).val < 1 := (i 1).isLt
  have ht : (i 0).val / 1024 * 16 + 15 < cfg1.N := by rw [show cfg1.N = 256 from N_1]; omega
  obtain ⟨-, -, -, -, e0, e1⟩ := idx_facts ⟨(i 0).val / 1024 * 16 + 15, ht⟩
  refine ⟨⟨(i 0).val / 1024 * 16 + 15, ht⟩, (flush1_2 _).mpr (by show ((i 0).val / 1024 * 16 + 15) % 16 = 15; omega), ?_⟩
  rw [mem_blk]
  intro a
  match a with
  | ⟨0, _⟩ =>
    show win1_2.index ⟨(i 0).val / 1024 * 16 + 15, ht⟩ (0 : Fin 2) * 1024 ≤ (i 0).val
      ∧ (i 0).val < win1_2.index ⟨(i 0).val / 1024 * 16 + 15, ht⟩ (0 : Fin 2) * 1024 + 1024
    rw [e0]
    show ((i 0).val / 1024 * 16 + 15) / 16 * 1024 ≤ (i 0).val ∧ (i 0).val < ((i 0).val / 1024 * 16 + 15) / 16 * 1024 + 1024
    omega
  | ⟨1, _⟩ =>
    show win1_2.index ⟨(i 0).val / 1024 * 16 + 15, ht⟩ (1 : Fin 2) * 1 ≤ (i 1).val
      ∧ (i 1).val < win1_2.index ⟨(i 0).val / 1024 * 16 + 15, ht⟩ (1 : Fin 2) * 1 + 1
    rw [e1]; omega

/-- The launch's result array ends holding every source point's nearest distance: the 16 blocks written back tile it. -/
theorem final (c : Dev nD) : (dat1 V c).arrAt 2 cfg1.N = result V c :=
  (dat1 V c).arrAt_eq_of_cover 2 (result V c) (flushed_eq V c) cover

end Cert.KernelIdeal.Region1

end
-- ==== Proof.KernelValue.lean ====
/-
  What the kernel's program leaves in its result buffer, over the extended reals. The first launch fills its result
  array with every point of the first cloud's nearest squared distance to the second cloud; the second launch, which
  finds the two argument arrays as launched (the first launch reads them through input windows only), with every
  point of the second cloud's nearest distance to the first; neither launch touches the other's result. The closing
  host operations add up each array from zero, divide by 16384, add the two means and halve: the symmetric mean of
  the two totals.
-/
import proofs.«111481_j31696858644903_1_alg».proof.Proof.ValueRun
import proofs.«111481_j31696858644903_1_alg».proof.Proof.Region0
import proofs.«111481_j31696858644903_1_alg».proof.Proof.Region1
import Idealize.ShloMosaic.Lib.StableHlo.Run
import Idealize.ShloMosaic.PureOps.Ideal.Laws

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Cert.Nearest
open Idealize.ShloMosaic.Pipeline (Dat)

variable (m : (ℓ : Loc nD τ sig) → Buf (Elt Ideal) ℓ) (ρ : Dev nD → PrngReg)

/-- The two clouds as launched. -/
abbrev cloud0 (c : Dev nD) : Pts 16384 := m ((c : Thread nD τ).loc main_arg0)
abbrev cloud1 (c : Dev nD) : Pts 16384 := m ((c : Thread nD τ).loc main_arg1)

/-! ## The argument arrays as the second launch finds them -/

theorem V1_arg0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem V1_arg1 (c : Dev nD) : V1 m ρ c main_arg1 = m ((c : Thread nD τ).loc main_arg1) :=
  (W1_arr m ρ c 1).trans (((dat0 (V0 m ρ) c).arrAt_in 1 rfl _).trans (A_eq0 (V0 m ρ) c 1))

/-! ## The two result arrays when the host operations start -/

theorem W2_first (c : Dev nD) : W2 m ρ c (Proc.devRef .tc main_v0) = Region0.result (V0 m ρ) c :=
  (W2_of_ne m ρ c main_v0 (fun w => by fin_cases w <;> decide)).trans
    ((W1_arr m ρ c 2).trans (Region0.final (V0 m ρ) c))

theorem W2_second (c : Dev nD) : W2 m ρ c (Proc.devRef .tc main_v1) = Region1.result (V1 m ρ) c :=
  (W2_arr m ρ c 2).trans (Region1.final (V1 m ρ) c)

/-! ## Their sums are the totals -/

/-- A column of 16384 entries that holds each source point's nearest distance sums to the total. -/
theorem sum_column (y : FVec Ideal S16384x1 .f32) (s t : Pts 16384)
    (hy : ∀ r : Fin 16384, y (ix2 r (0 : Fin 1)) = nearest s t r) : ∑ i : S16384x1.Idx, y i = total s t := by
  rw [sum_idx2]
  unfold total
  exact Finset.sum_congr rfl fun r _ => by rw [Fin.sum_univ_one]; exact hy r

theorem first_apply (c : Dev nD) (r : Fin 16384) :
    Region0.result (V0 m ρ) c (ix2 r (0 : Fin 1)) = nearest (cloud0 m c) (cloud1 m c) r := rfl

theorem second_apply (c : Dev nD) (r : Fin 16384) :
    Region1.result (V1 m ρ) c (ix2 r (0 : Fin 1)) = nearest (cloud1 m c) (cloud0 m c) r := by
  show nearest (V1 m ρ c main_arg1) (V1 m ρ c main_arg0) r = nearest (cloud1 m c) (cloud0 m c) r
  rw [V1_arg0, V1_arg1]

/-- The host's sum of a whole array from zero, at the one index of the scalar. -/
theorem hostSum_apply (y : FVec Ideal S16384x1 .f32) (i : S_.Idx) :
    Host.reduceAdd (F := Ideal) y (constant (F := Ideal) S_ .f32 0x00000000#32) reducesTo_S16384x1_S_d0_1 h_S_ i
      = Ideal.ofBits .f32 0x00000000#32 + ∑ j : S16384x1.Idx, y j := by
  simp only [Host.reduceAdd, Ideal.hostReduceAdd_def]
  exact Ideal.hostReduceAdd_total reducesTo_S16384x1_S_d0_1 (fun b => b.elim0) y _ i

/-! ## The result buffer -/

/-- The closing host operations, as one function of the two result arrays. -/
def closing (y0 y1 : FVec Ideal S16384x1 .f32) : FVec Ideal S_ .f32 :=
  Host.divf (F := Ideal)
    (addf
      (Host.divf (F := Ideal) (Host.reduceAdd (F := Ideal) y0 (constant (F := Ideal) S_ .f32 0x00000000#32) reducesTo_S16384x1_S_d0_1 h_S_)
        (constant (F := Ideal) S_ .f32 0x46800000#32))
      (Host.divf (F := Ideal) (Host.reduceAdd (F := Ideal) y1 (constant (F := Ideal) S_ .f32 0x00000000#32) reducesTo_S16384x1_S_d0_1 h_S_)
        (constant (F := Ideal) S_ .f32 0x46800000#32)))
    (constant (F := Ideal) S_ .f32 0x40000000#32)

theorem closing_apply (y0 y1 : FVec Ideal S16384x1 .f32) (i : S_.Idx) :
    closing y0 y1 i = symmetricMean (∑ j : S16384x1.Idx, y0 j) (∑ j : S16384x1.Idx, y1 j) := by
  unfold closing symmetricMean
  show FloatOps.hostDivf (FloatOps.addf
      (FloatOps.hostDivf (Host.reduceAdd (F := Ideal) y0 _ reducesTo_S16384x1_S_d0_1 h_S_ i) _)
      (FloatOps.hostDivf (Host.reduceAdd (F := Ideal) y1 _ reducesTo_S16384x1_S_d0_1 h_S_ i) _)) _ = _
  rw [hostSum_apply, hostSum_apply]
  rfl

/-- The last boundary's contents at the result buffer: the closing operations of the two result arrays. -/
theorem W3_closing (c : Dev nD) :
    W3 m ρ c (Proc.devRef .tc main_v7)
      = closing (W2 m ρ c (Proc.devRef .tc main_v0)) (W2 m ρ c (Proc.devRef .tc main_v1)) := by
  show StableHlo.after hostOps2 (W2 m ρ c) (Proc.devRef .tc main_v7) = _
  unfold closing
  after_results

/-- The result buffer ends at the symmetric mean of the two clouds' total nearest distances. -/
theorem W3_result (c : Dev nD) :
    W3 m ρ c (Proc.devRef .tc main_v7)
      = fun _ => symmetricMean (total (cloud0 m c) (cloud1 m c)) (total (cloud1 m c) (cloud0 m c)) := by
  rw [W3_closing, W2_first, W2_second]
  funext i
  rw [closing_apply, sum_column _ _ _ (first_apply m ρ c), sum_column _ _ _ (second_apply m ρ c)]

/-- THE KERNEL'S RUN, READ: every weakly fair execution terminates, nothing faulting, the result buffer at the symmetric
    mean and the argument arrays as launched. -/
theorem run : θ_run defs (onTc (τ := τ) (main (F := Ideal))) ⟨m, fun _ => 0, ρ⟩ (fun r => ∀ c : Dev nD,
      r.2.mem ((c.tc : Thread nD τ).loc main_v7)
        = (fun _ => symmetricMean (total (cloud0 m c) (cloud1 m c)) (total (cloud1 m c) (cloud0 m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (W3_result m ρ c), (h c).2.1, (h c).2.2⟩)
    (ValueRun.run_result m ρ)

end Cert.KernelIdeal.KernelValue

end
-- ==== Proof.RefNearest.lean ====
/-
  The reference program's result, read as mathematics. Its pairwise array is the squared distance in the expanded
  form, element by element; its minimum reduce along the target axis, started from +∞, is each source point's
  nearest distance; its add reduce over the sources is the total; and the three closing divisions are the symmetric
  mean of the two totals. The second half of the program is the first with the two clouds exchanged.
-/
import proofs.«111481_j31696858644903_1_alg».proof.Proof.Dist
import proofs.«111481_j31696858644903_1_alg».proof.Proof.Gen.ReferenceIdeal.Read
import Idealize.ShloMosaic.PureOps.Reduce
import Idealize.ShloMosaic.PureOps.Ideal.Laws
import Idealize.ShloMosaic.Lib.ValueIdx
import Idealize.ShloMosaic.Lib.ValueIdxRank1

noncomputable section

namespace Cert.ReferenceIdeal.RefValue

open Cert.ReferenceIdeal Cert.ReferenceIdeal.Gen Cert.ReferenceIdeal.Read Idealize.ShloMosaic
  Idealize.ShloMosaic.ValueIdx Cert.Nearest

/-- A cloud of 16384 points as the program holds it. -/
abbrev Cloud : Type := (⟨S16384x3, .f32⟩ : BufTy).Contents (Elt Ideal)

/-! ## The pairwise array is the expanded squared distance -/

/-- First direction: entry (r, c) is the distance from point r of the first cloud to point c of the second. -/
theorem pair_fst (x0 x1 : Cloud) (r c : Fin 16384) :
    val_main_v14 (F := Ideal) x0 x1 (ix2 r c) = dist x0 x1 r c := by
  rw [val_main_v14_apply, val_main_v9_apply, val_main_v13_apply, val_main_v7_apply, val_main_v2_apply,
    val_main_v1_apply, val_main_v8_apply, val_main_v6_apply, val_main_v5_apply, val_main_v4_apply,
    val_main_v12_apply, val_main_cst_1_apply, val_main_v11_apply, val_main_cst_apply, val_main_cst_0_apply]
  have e1 : ∀ k : Fin 3, idx_main_v1 (idx_main_v2 (idx_main_v7 (ix2 r c))) k = ix2 r k := fun k =>
    funext fun a => Fin.ext (by match a with | ⟨0, _⟩ => rfl | ⟨1, _⟩ => rfl)
  have e2 : ∀ k : Fin 3, idx_main_v4 (idx_main_v5 (idx_main_v6 (idx_main_v8 (ix2 r c)))) k = ix2 c k := fun k =>
    funext fun a => Fin.ext (by match a with | ⟨0, _⟩ => rfl | ⟨1, _⟩ => rfl)
  have e3 : ∀ k : Fin 3, lidx_main_v11 (ix2 r c) k = ix2 r k := fun k =>
    funext fun a => Fin.ext (by match a with | ⟨0, _⟩ => rfl | ⟨1, _⟩ => rfl)
  have e4 : ∀ k : Fin 3, idx_main_v10 (ridx_main_v11 (ix2 r c) k) = ix2 c k := fun k =>
    funext fun a => Fin.ext (by match a with | ⟨0, _⟩ => rfl | ⟨1, _⟩ => rfl)
  simp only [e1, e2, e3, val_main_v10_apply, e4, val_main_v0_apply, val_main_v3_apply, Ideal.mulf_def,
    Ideal.addf_def, Ideal.subf_def, Ideal.ofBits_def, Ideal.ofBits_zero_f32, zero_add]
  rfl

/-- Second direction: the clouds exchanged. Entry (r, c) is the distance from point r of the second cloud to
    point c of the first. -/
theorem pair_snd (x0 x1 : Cloud) (r c : Fin 16384) :
    val_main_v32 (F := Ideal) x0 x1 (ix2 r c) = dist x1 x0 r c := by
  rw [val_main_v32_apply, val_main_v27_apply, val_main_v31_apply, val_main_v25_apply, val_main_v20_apply,
    val_main_v19_apply, val_main_v26_apply, val_main_v24_apply, val_main_v23_apply, val_main_v22_apply,
    val_main_v30_apply, val_main_cst_7_apply, val_main_v29_apply, val_main_cst_5_apply, val_main_cst_6_apply]
  have e1 : ∀ k : Fin 3, idx_main_v19 (idx_main_v20 (idx_main_v25 (ix2 r c))) k = ix2 r k := fun k =>
    funext fun a => Fin.ext (by match a with | ⟨0, _⟩ => rfl | ⟨1, _⟩ => rfl)
  have e2 : ∀ k : Fin 3, idx_main_v22 (idx_main_v23 (idx_main_v24 (idx_main_v26 (ix2 r c)))) k = ix2 c k := fun k =>
    funext fun a => Fin.ext (by match a with | ⟨0, _⟩ => rfl | ⟨1, _⟩ => rfl)
  have e3 : ∀ k : Fin 3, lidx_main_v29 (ix2 r c) k = ix2 r k := fun k =>
    funext fun a => Fin.ext (by match a with | ⟨0, _⟩ => rfl | ⟨1, _⟩ => rfl)
  have e4 : ∀ k : Fin 3, idx_main_v28 (ridx_main_v29 (ix2 r c) k) = ix2 c k := fun k =>
    funext fun a => Fin.ext (by match a with | ⟨0, _⟩ => rfl | ⟨1, _⟩ => rfl)
  simp only [e1, e2, e3, val_main_v28_apply, e4, val_main_v18_apply, val_main_v21_apply, Ideal.mulf_def,
    Ideal.addf_def, Ideal.subf_def, Ideal.ofBits_def, Ideal.ofBits_zero_f32, zero_add]
  rfl

/-! ## The minimum reduce along the target axis is the nearest distance -/

/-- Row r of the pairwise array with column k put back is entry (r, k). -/
theorem lift_row (h : S16384x16384.Reduces [1] S16384) (r : Fin 16384) (k : Fin (S16384x16384.size 1)) :
    h.lift (ix1 r) k = ix2 r (⟨k.val, k.isLt⟩ : Fin 16384) := by
  funext c; apply Fin.ext
  fin_cases c <;> rfl

/-- The fold of min from +∞ over a row of distances is the row's infimum: z is below it exactly when z is below
    every entry. -/
theorem reduce_min_row (y : FVec Ideal S16384x16384 .f32) (s t : Pts 16384)
    (hy : ∀ r c : Fin 16384, y (ix2 r c) = dist s t r c) (r : Fin 16384) :
    Host.reduce FloatOps.minimumf y (constant (F := Ideal) S_ .f32 0x7F800000#32)
        reducesTo_S16384x16384_S16384_d1 h_S_ (ix1 r) = nearest s t r := by
  have h : S16384x16384.Reduces [1] S16384 := by decide
  rw [Host.reduce_eq_fold_single (α := Ideal .f32) FloatOps.minimumf y (constant (F := Ideal) S_ .f32 0x7F800000#32)
    reducesTo_S16384x16384_S16384_d1 h h_S_ (ix1 r)]
  have hf : (y ∘ h.lift (ix1 r)) = fun k : Fin 16384 => dist s t r k := funext fun k => by
    show y (h.lift (ix1 r) k) = _
    rw [lift_row h r k]; exact hy r _
  have hb : constant (F := Ideal) S_ .f32 0x7F800000#32 (Shape.Idx.first h_S_) = (⊤ : EReal) := ofBits_inf
  refine Eq.trans (b := (Finset.univ : Finset (Fin 16384)).fold min (⊤ : EReal) fun k => dist s t r k) ?_ ?_
  · rw [← hb]
    exact congrArg (fun f => Finset.fold min (constant (F := Ideal) S_ .f32 0x7F800000#32 (Shape.Idx.first h_S_)) f
      (Finset.univ : Finset (Fin 16384))) hf
  · refine eq_of_forall_le_iff fun z => ?_
    rw [Finset.le_fold_min, le_nearest_iff]
    exact ⟨fun hz c => hz.2 c (Finset.mem_univ c), fun hz => ⟨le_top, fun c _ => hz c⟩⟩

theorem nearest_fst (x0 x1 : Cloud) (r : Fin 16384) :
    val_main_v15 (F := Ideal) x0 x1 (ix1 r) = nearest x0 x1 r :=
  reduce_min_row _ x0 x1 (pair_fst x0 x1) r

theorem nearest_snd (x0 x1 : Cloud) (r : Fin 16384) :
    val_main_v33 (F := Ideal) x0 x1 (ix1 r) = nearest x1 x0 r :=
  reduce_min_row _ x1 x0 (pair_snd x0 x1) r

/-! ## The add reduce over the sources is the total -/

/-- A sum over the rank-1 index set of a vector that holds each source's nearest distance is the total. -/
theorem sum_nearest (y : FVec Ideal S16384 .f32) (s t : Pts 16384) (hy : ∀ r : Fin 16384, y (ix1 r) = nearest s t r) :
    ∑ j : S16384.Idx, y j = total s t := by
  unfold total
  rw [← Equiv.sum_comp (idxEquiv1 (n := 16384)).symm y]
  exact Finset.sum_congr rfl fun r _ => hy r

/-! ## The result -/

/-- The reference's scalar: the mean over the sources of the nearest distances, in each direction, then the mean
    of the two. -/
theorem ref_value (x0 x1 : (⟨Cert.ReferenceIdeal.S16384x3, .f32⟩ : BufTy).Contents (Elt Ideal)) :
    Cert.ReferenceIdeal.Read.val_main_v37 (F := Ideal) x0 x1
      = fun _ => Cert.Nearest.symmetricMean (Cert.Nearest.total x0 x1) (Cert.Nearest.total x1 x0) := by
  funext i
  rw [val_main_v37_apply, val_main_v36_apply, val_main_v17_apply, val_main_v35_apply, val_main_v16_apply,
    val_main_v34_apply, val_main_cst_3_apply, val_main_cst_9_apply, val_main_cst_4_apply, val_main_cst_10_apply,
    val_main_cst_11_apply, sum_nearest _ x0 x1 (nearest_fst x0 x1), sum_nearest _ x1 x0 (nearest_snd x0 x1)]
  rfl

end Cert.ReferenceIdeal.RefValue

end
-- ==== Proof.lean ====
/-
  The symmetric nearest-neighbour distance between two clouds of 16384 points of ℝ³: for each point of one cloud the
  least squared distance ‖s‖² + ‖t‖² − 2·⟨s, t⟩ to the points of the other, averaged over the cloud, in both
  directions, and the mean of the two averages.

  The reference forms each 16384 × 16384 matrix of squared distances whole and takes row minima. The kernel walks
  the same matrix in 1024 × 1024 tiles, keeping for each tile row a running row minimum that the first tile of the row
  starts from +∞; since min is the meet of a linear order with +∞ on top, the running minimum after the last tile is
  the minimum of the whole row (Proof/Dist.lean, Proof/Region0.lean and its sibling for the second direction), and
  inside a tile the squared norms, the inner products (a matrix product into zero, whose narrowed operands are the
  operands themselves over the extended reals) and the row minimum are the reference's, entry by entry
  (Proof/TileNearest.lean). Both programs then close with the same sums and divisions (Proof/KernelValue.lean,
  Proof/RefNearest.lean). No step moves a factor across a sum or cancels, so nothing asks an entry to be finite.
-/
import proofs.«111481_j31696858644903_1_alg».proof.Defs
import proofs.«111481_j31696858644903_1_alg».proof.Proof.Gen.Kernel
import proofs.«111481_j31696858644903_1_alg».proof.Proof.Gen.Kernel.Skeleton
import proofs.«111481_j31696858644903_1_alg».proof.Proof.Gen.Kernel.Launch
import proofs.«111481_j31696858644903_1_alg».proof.Proof.Gen.Kernel.Points
import proofs.«111481_j31696858644903_1_alg».proof.Proof.Gen.Kernel.Frame
import proofs.«111481_j31696858644903_1_alg».proof.Proof.Gen.KernelIdeal
import proofs.«111481_j31696858644903_1_alg».proof.Proof.Gen.KernelIdeal.Skeleton
import proofs.«111481_j31696858644903_1_alg».proof.Proof.Gen.KernelIdeal.Launch
import proofs.«111481_j31696858644903_1_alg».proof.Proof.Gen.KernelIdeal.Points
import proofs.«111481_j31696858644903_1_alg».proof.Proof.Gen.KernelIdeal.Frame
import proofs.«111481_j31696858644903_1_alg».proof.Proof.Gen.ReferenceIdeal
import proofs.«111481_j31696858644903_1_alg».proof.Proof.Gen.Pre_finite_inputs
import proofs.«111481_j31696858644903_1_alg».proof.Proof.Gen.ReferenceIdeal.Run
import proofs.«111481_j31696858644903_1_alg».proof.Proof.Gen.ReferenceIdeal.Read
import proofs.«111481_j31696858644903_1_alg».proof.Proof.KernelValue
import proofs.«111481_j31696858644903_1_alg».proof.Proof.RefNearest
import Idealize.ShloMosaic.Adequacy
import Idealize.ShloMosaic.Init

noncomputable section

namespace Cert.Proof

open Idealize.ShloMosaic Idealize.ShloMosaic.TcCoe Idealize.SL.Sem Cert.Nearest

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the symmetric mean of the two clouds' total nearest distances. -/
theorem algebraic : Cert.algebraic_KernelIdeal_ReferenceIdeal := by
  intro m ρ m' ρ' _ hagree
  refine ⟨fun c => fun _ => symmetricMean
      (total (Cert.KernelIdeal.KernelValue.cloud0 m c) (Cert.KernelIdeal.KernelValue.cloud1 m c))
      (total (Cert.KernelIdeal.KernelValue.cloud1 m c) (Cert.KernelIdeal.KernelValue.cloud0 m c)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v37_eq, Cert.ReferenceIdeal.RefValue.ref_value, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
